-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x512 : Shape := ⟨3, ![2, 2048, 512]⟩
abbrev S32000x512 : Shape := ⟨2, ![32000, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S32000x512 : S_.BroadcastsInDim S32000x512 (![] : Fin 0 → Fin S32000x512.rank)
  reducesTo_S32000x512_S_d0_1 : S32000x512.ReducesTo [0, 1] S_

variable [Facts]

def fn {F : FTy → Type} [FloatOps F] (main_arg0 : FVec F S2x2048x512 .f32) (main_arg1 : FVec F S32000x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S32000x512 .f32 := Host.absf main_arg1
  let main_cst_0 : FVec F S_ .f32 := constant S_ .f32 0x7F800000#32
  let main_v5 : FVec F S32000x512 .f32 := broadcastInDim S32000x512 ![] bcast_S_S32000x512 main_cst_0
  let main_v6 : IVec S32000x512 1 := cmpf .olt main_v4 main_v5
  let main_c_1 : IVec S_ 1 := constantI S_ 1 1#1
  let main_v7 : IVec S_ 1 := (fun x v => Host.reduce IntOp.andi x v reducesTo_S32000x512_S_d0_1 h_S_) main_v6 main_c_1
  let main_v8 : IVec S_ 1 := andi main_v3 main_v7
  main_v8
-- ==== Kernel.lean ====
abbrev S2x2048x512 : Shape := ⟨3, ![2, 2048, 512]⟩
abbrev S32000x512 : Shape := ⟨2, ![32000, 512]⟩
abbrev S4096x512 : Shape := ⟨2, ![4096, 512]⟩
abbrev S4096x32000 : Shape := ⟨2, ![4096, 32000]⟩
abbrev S512x512 : Shape := ⟨2, ![512, 512]⟩
abbrev S1280x512 : Shape := ⟨2, ![1280, 512]⟩
abbrev S512x1280 : Shape := ⟨2, ![512, 1280]⟩
abbrev S512 : Shape := ⟨1, ![512]⟩
abbrev S512x1 : Shape := ⟨2, ![512, 1]⟩
abbrev S1280 : Shape := ⟨1, ![1280]⟩
abbrev S1x1280 : Shape := ⟨2, ![1, 1280]⟩
abbrev S2x2048x32000 : Shape := ⟨3, ![2, 2048, 32000]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x512, .f32⟩
  | .hbm, ⟨1, _⟩ => ⟨S32000x512, .f32⟩
  | .hbm, ⟨2, _⟩ => ⟨S4096x512, .f32⟩
  | .hbm, ⟨3, _⟩ => ⟨S4096x32000, .f32⟩
  | .hbm, ⟨4, _⟩ => ⟨S2x2048x32000, .f32⟩
  | .local _ .vmem, ⟨0, _⟩ => ⟨S512x512, .f32⟩
  | .local _ .vmem, ⟨1, _⟩ => ⟨S512x512, .f32⟩
  | .local _ .vmem, ⟨2, _⟩ => ⟨S1280x512, .f32⟩
  | .local _ .vmem, ⟨3, _⟩ => ⟨S1280x512, .f32⟩
  | .local _ .vmem, ⟨4, _⟩ => ⟨S512x1280, .f32⟩
  | .local _ .vmem, ⟨5, _⟩ => ⟨S512x1280, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x2048x512_S4096x512 : S2x2048x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1280x512_S1280x512_0_0 : ∀ a, (![0, 0] : Fin 2 → Nat) a + S1280x512.size a ≤ S1280x512.size a
  h_S1280x512 : 0 < S1280x512.numel
  reduces_S512x512_S512 : S512x512.Reduces [1] S512
  shapeCasts_S512_S512x1 : S512.ShapeCasts S512x1
  broadcasts_S512x1_S512x512 : S512x1.Broadcasts S512x512
  reduces_S1280x512_S1280 : S1280x512.Reduces [1] S1280
  shapeCasts_S1280_S1x1280 : S1280.ShapeCasts S1x1280
  bitsLt_bf16_f32 : FTy.bits .bf16 < FTy.bits .f32
  broadcasts_S512x1_S512x1280 : S512x1.Broadcasts S512x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  shapeCasts_S4096x32000_S2x2048x32000 : S4096x32000.ShapeCasts S2x2048x32000
  dot_S512x512_S1280x512_S512x1280_1_1_0_0_n_n_wf : DotDims.WF S512x512 S1280x512 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S32000x512.size a
  hwx0_1 : ∀ i : grid0.Coords, EltTy.bits .f32 = 32 ∨ (Rect.block (s := S32000x512) S1280x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1280.size a ≤ S4096x32000.size a
  hwx0_2 : ∀ i : grid0.Coords, EltTy.bits .f32 = 32 ∨ (Rect.block (s := S4096x32000) S512x1280.size (cc0_transform_2 i) (hinb0_2 i)).WholeWords (EltTy.packing .f32)

variable [Facts₀]

def dot_S512x512_S1280x512_S512x1280_1_1_0_0_n_n : DotDims S512x512 S1280x512 S512x1280 where
  lhsContracting := [1]
  rhsContracting := [1]
  lhsNonContracting := [0]
  rhsNonContracting := [0]
  lhsBatch := []
  rhsBatch := []
  wf := dot_S512x512_S1280x512_S512x1280_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x512 : Shape := ⟨3, ![2, 2048, 512]⟩
abbrev S32000x512 : Shape := ⟨2, ![32000, 512]⟩
abbrev S_ : Shape := ⟨0, ![]⟩
abbrev S2x2048 : Shape := ⟨2, ![2, 2048]⟩
abbrev S2x2048x1 : Shape := ⟨3, ![2, 2048, 1]⟩
abbrev S32000 : Shape := ⟨1, ![32000]⟩
abbrev S2x2048x32000 : Shape := ⟨3, ![2, 2048, 32000]⟩
abbrev S1x1x32000 : Shape := ⟨3, ![1, 1, 32000]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S32000x512, .f32⟩
  | .hbm, ⟨2, _⟩ => ⟨S2x2048x512, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S32000x512, .f32⟩
  | .hbm, ⟨17, _⟩ => ⟨S_, .f32⟩
  | .hbm, ⟨18, _⟩ => ⟨S32000, .f32⟩
  | .hbm, ⟨19, _⟩ => ⟨S2x2048x32000, .f32⟩
  | .hbm, ⟨20, _⟩ => ⟨S_, .f32⟩
  | .hbm, ⟨21, _⟩ => ⟨S2x2048x32000, .f32⟩
  | .hbm, ⟨22, _⟩ => ⟨S2x2048x32000, .f32⟩
  | .hbm, ⟨23, _⟩ => ⟨S2x2048x32000, .f32⟩
  | .hbm, ⟨24, _⟩ => ⟨S2x2048x32000, .f32⟩
  | .hbm, ⟨25, _⟩ => ⟨S1x1x32000, .f32⟩
  | .hbm, ⟨26, _⟩ => ⟨S2x2048x32000, .f32⟩
  | .hbm, ⟨27, _⟩ => ⟨S2x2048x32000, .f32⟩
  | .hbm, ⟨28, _⟩ => ⟨S_, .f32⟩
  | .hbm, ⟨29, _⟩ => ⟨S2x2048x32000, .f32⟩
  | .hbm, ⟨30, _⟩ => ⟨S2x2048x32000, .f32⟩
  | .hbm, ⟨31, _⟩ => ⟨S2x2048x32000, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S2x2048x512_S2x2048_d2 : S2x2048x512.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x512_0_1_2 : S2x2048x1.BroadcastsInDim S2x2048x512 (![0, 1, 2] : Fin 3 → Fin S2x2048x512.rank)
  reducesTo_S32000x512_S32000_d1 : S32000x512.ReducesTo [1] S32000
  bcast_S_S2x2048x32000 : S_.BroadcastsInDim S2x2048x32000 (![] : Fin 0 → Fin S2x2048x32000.rank)
  bcast_S2x2048x1_S2x2048x32000_0_1_2 : S2x2048x1.BroadcastsInDim S2x2048x32000 (![0, 1, 2] : Fin 3 → Fin S2x2048x32000.rank)
  bcast_S32000_S1x1x32000_2 : S32000.BroadcastsInDim S1x1x32000 (![2] : Fin 1 → Fin S1x1x32000.rank)
  bcast_S1x1x32000_S2x2048x32000_0_1_2 : S1x1x32000.BroadcastsInDim S2x2048x32000 (![0, 1, 2] : Fin 3 → Fin S2x2048x32000.rank)
  dot_S2x2048x512_S32000x512_S2x2048x32000_2_1_01_0_n_n_wf : DotDims.WF S2x2048x512 S32000x512 S2x2048x32000 [2] [1] [0, 1] [0] [] []

variable [Facts₀]

def dot_S2x2048x512_S32000x512_S2x2048x32000_2_1_01_0_n_n : DotDims S2x2048x512 S32000x512 S2x2048x32000 where
  lhsContracting := [2]
  rhsContracting := [1]
  lhsNonContracting := [0, 1]
  rhsNonContracting := [0]
  lhsBatch := []
  rhsBatch := []
  wf := dot_S2x2048x512_S32000x512_S2x2048x32000_2_1_01_0_n_n_wf

class Facts : Prop extends Facts₀ where

variable [Facts]
-- ==== Proof.Spec.lean ====
/-
  The distance from a normalized row to a codebook row, as one function of the two rows.

  For two rows `x` and `y` of `d` extended reals: the row `x` is divided by its Euclidean norm, the norm
  clamped from below by the small positive word `ε`; the squared distance from the resulting unit row `u`
  to `y` is expanded as `‖u‖² − 2·⟨u, y⟩ + ‖y‖²`, clamped from below by zero, and its square root taken.
  Every sum is a finite sum over the `d` coordinates; the three float words are left as the words they
  are, so that both programs' literals are the same terms and are never evaluated.
-/
import Idealize.ShloMosaic.PureOps.Ideal
import Idealize.ShloMosaic.Lib.ValueIdx

open scoped BigOperators

noncomputable section

namespace Cert.Dist

open Idealize.ShloMosaic Idealize.ShloMosaic.ValueIdx

/-- The lower clamp of the norm, the word both programs write for `1e-12`. -/
abbrev epsW : EReal := Ideal.ofBits .f32 0x2B8CBCCC#32
/-- The factor of the cross term, the word for `2.0`. -/
abbrev twoW : EReal := Ideal.ofBits .f32 0x40000000#32
/-- The lower clamp of the squared distance, the zero word. -/
abbrev zeroW : EReal := Ideal.ofBits .f32 0x00000000#32

variable {d : ℕ}

/-- The Euclidean norm of a row, not below `ε`. -/
def clampedNorm (x : Fin d → EReal) : EReal := max (Ideal.sqrt (∑ k, x k * x k)) epsW

/-- The row divided by its clamped norm. -/
def unitRow (x : Fin d → EReal) (k : Fin d) : EReal := Ideal.div (x k) (clampedNorm x)

/-- The distance from the unit row of `x` to `y`, by the expanded square. -/
def dist (x y : Fin d → EReal) : EReal :=
  Ideal.sqrt (max (((∑ k, unitRow x k * unitRow x k) - twoW * ∑ k, unitRow x k * y k) + ∑ k, y k * y k) zeroW)

/-- The whole result as one function of the hidden states `h : [2, 2048, 512]` and the codebook `w : [32000, 512]`:
    entry `(b, s, n)` is the distance from the unit row of `h[b, s, :]` to `w[n, :]`. -/
def distArr (h : (⟨3, ![2, 2048, 512]⟩ : Shape).Idx → EReal) (w : (⟨2, ![32000, 512]⟩ : Shape).Idx → EReal) :
    (⟨3, ![2, 2048, 32000]⟩ : Shape).Idx → EReal := fun i =>
  dist (fun k : Fin 512 => h (ix3 (⟨(i 0).val, (i 0).isLt⟩ : Fin 2) (⟨(i 1).val, (i 1).isLt⟩ : Fin 2048) k))
    (fun k : Fin 512 => w (ix2 (⟨(i 2).val, (i 2).isLt⟩ : Fin 32000) k))

/-- At an index written by its coordinates. -/
theorem distArr_ix3 (h : (⟨3, ![2, 2048, 512]⟩ : Shape).Idx → EReal) (w : (⟨2, ![32000, 512]⟩ : Shape).Idx → EReal)
    (b : Fin 2) (s : Fin 2048) (n : Fin 32000) :
    distArr h w (ix3 b s n) = dist (fun k : Fin 512 => h (ix3 b s k)) (fun k : Fin 512 => w (ix2 n k)) := rfl

end Cert.Dist

end
-- ==== Proof.LibKeepdims.lean ====
/-
  Row quantities of a matrix kept as a column, read at an index.

  A kernel that reduces each row of an `[a, b]` block to one number and keeps it as an `[a, 1]` column
  (`jnp.sum(…, axis=-1, keepdims=True)`) goes through three layout steps before the number meets the
  matrix again: the lane sum into an `[a]` vector, that vector viewed as an `[a, 1]` column, and the
  column broadcast along the rows of an `[a, b']` matrix. Each is read here at an index written by
  coordinates, for any sizes: entry `(p, c)` of the broadcast column is the row quantity of row `p`,
  and the lane sum of row `p` is the finite sum of that row's entries over the extended reals.
-/
import Idealize.ShloMosaic.Lib.ValueLayout
import Idealize.ShloMosaic.PureOps.Ideal.Laws

open scoped BigOperators

namespace Cert.LibKeepdims

open Idealize.ShloMosaic Idealize.ShloMosaic.ValueIdx

variable {α : Type}

/-- An `[a]` vector viewed as an `[a, 1]` column reads, at `(i, u)`, the vector's entry `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the broadcast
    repeats the unit axis and keeps the row. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` matrix of extended reals along its second axis, from the zero word, is at row `p`
    the sum of that row's `b` entries. -/
theorem rowSum_apply {a b : ℕ} (src : FVec Ideal ⟨2, ![a, b]⟩ .f32)
    (h : (⟨2, ![a, b]⟩ : Shape).Reduces [1] ⟨1, ![a]⟩) (p : Fin a) :
    multiReduction .add [1] ⟨1, ![a]⟩ src 0x00000000#32 h (.inl rfl) rfl (ix1 p) = ∑ k : Fin b, src (ix2 p k) :=
  (Ideal.multiReduction_add_single src 0x00000000#32 h (.inl rfl) rfl (ix1 p)).trans
    (Finset.sum_congr rfl fun k _ => congrArg src (funext fun ax => Fin.ext (by
      match ax with
      | ⟨0, _⟩ => rfl
      | ⟨1, _⟩ => rfl)))

end Cert.LibKeepdims
-- ==== Proof.KernelPayload.lean ====
/-
  What the kernel body stores in one output block, entry by entry.

  The body loads a `[512, 512]` block `x0` of hidden rows and a `[1280, 512]` block `x1` of codebook rows and
  stores a `[512, 1280]` block. Its entry `(p, q)` depends only on row `p` of `x0` and row `q` of `x1`: it is
  the distance `Cert.Dist.dist` from the unit row of `x0 p` to `x1 q`. On the extended reals the two
  narrowings to bf16 in front of the matrix product are the identity, the product into the zero block is
  the plain sum of products over the 512 contracted coordinates, and each lane sum from the zero word is
  the plain sum of its row.
-/
import proofs.«136764_j24635932410273_1_alg».proof.Proof.Gen.KernelIdeal.Skeleton
import proofs.«136764_j24635932410273_1_alg».proof.Proof.Spec
import proofs.«136764_j24635932410273_1_alg».proof.Proof.LibKeepdims
import Idealize.ShloMosaic.Lib.ValueLayout
import Idealize.ShloMosaic.PureOps.Ideal.Laws

open scoped BigOperators

noncomputable section

namespace Cert.KernelIdeal.Payload

open Cert.KernelIdeal Cert.KernelIdeal.Gen Idealize.ShloMosaic Idealize.ShloMosaic.ValueIdx Cert.LibKeepdims

/-! ## The body's intermediate values, named -/

/-- The column of clamped row norms of the hidden block. -/
def normCol (x : FVec Ideal S512x512 .f32) : FVec Ideal S512x1 .f32 :=
  maximumf (sqrt (shapeCast S512x1 (multiReduction .add [1] S512 (mulf x x) 0x00000000#32 reduces_S512x512_S512 (.inl rfl) rfl) shapeCasts_S512_S512x1))
    (broadcast S512x1 (Scalar.ofBits .f32 0x2B8CBCCC#32))

/-- The hidden block with every row divided by its clamped norm. -/
def unitBlock (x : FVec Ideal S512x512 .f32) : FVec Ideal S512x512 .f32 :=
  divf x (broadcastTo S512x512 (normCol x) broadcasts_S512x1_S512x512)

/-- The column of squared norms of the unit rows. -/
def unitSqCol (x : FVec Ideal S512x512 .f32) : FVec Ideal S512x1 .f32 :=
  shapeCast S512x1 (multiReduction .add [1] S512 (mulf (unitBlock x) (unitBlock x)) 0x00000000#32 reduces_S512x512_S512 (.inl rfl) rfl) shapeCasts_S512_S512x1

/-- The row of squared norms of the codebook rows. -/
def codeSqRow (y : FVec Ideal S1280x512 .f32) : FVec Ideal S1x1280 .f32 :=
  shapeCast S1x1280 (multiReduction .add [1] S1280 (mulf y y) 0x00000000#32 reduces_S1280x512_S1280 (.inl rfl) rfl) shapeCasts_S1280_S1x1280

/-- The inner products of unit rows with codebook rows. -/
def cross (x : FVec Ideal S512x512 .f32) (y : FVec Ideal S1280x512 .f32) : FVec Ideal S512x1280 .f32 :=
  matmul dot_S512x512_S1280x512_S512x1280_1_1_0_0_n_n none (truncf .bf16 (unitBlock x) bitsLt_bf16_f32) (truncf .bf16 y bitsLt_bf16_f32)
    (constant S512x1280 .f32 0x00000000#32)

/-- The stored block over those names. -/
def stored (x : FVec Ideal S512x512 .f32) (y : FVec Ideal S1280x512 .f32) : FVec Ideal S512x1280 .f32 :=
  sqrt (maximumf (addf (subf (broadcastTo S512x1280 (unitSqCol x) broadcasts_S512x1_S512x1280)
      (mulf (broadcast S512x1280 (Scalar.ofBits .f32 0x40000000#32)) (cross x y)))
      (broadcastTo S512x1280 (codeSqRow y) broadcasts_S1x1280_S512x1280))
    (broadcast S512x1280 (Scalar.ofBits .f32 0x00000000#32)))

/-- The body's payload is `stored` of its two loads: the names unfold to the printed sequence, and the cast of the
    hidden block to its own shape is the identity. -/
theorem pay_eq (x0 : Vec Ideal S512x512 .f32) (x1 : Vec Ideal S1280x512 .f32) :
    k0_pay1 (F := Ideal) x0 x1 = stored x0 x1 := by
  have e : k0_pay1 (F := Ideal) x0 x1 = stored (shapeCast S512x512 x0 shapeCasts_S512x512_S512x512) x1 := rfl
  rw [e, shapeCast_self]

/-! ## Each of them at an index -/

theorem normCol_apply (x : FVec Ideal S512x512 .f32) (p : Fin 512) (u : Fin 1) :
    normCol x (ix2 p u) = Cert.Dist.clampedNorm (fun k : Fin 512 => x (ix2 p k)) := by
  show max (Ideal.sqrt (shapeCast S512x1 (multiReduction .add [1] S512 (mulf x x) 0x00000000#32 reduces_S512x512_S512 (.inl rfl) rfl) shapeCasts_S512_S512x1 (ix2 p u))) (Ideal.ofBits .f32 0x2B8CBCCC#32) = _
  rw [shapeCast_a_a1_apply, rowSum_apply]
  rfl

theorem unitBlock_apply (x : FVec Ideal S512x512 .f32) (p k : Fin 512) :
    unitBlock x (ix2 p k) = Cert.Dist.unitRow (fun k : Fin 512 => x (ix2 p k)) k := by
  show Ideal.div (x (ix2 p k)) (broadcastTo S512x512 (normCol x) broadcasts_S512x1_S512x512 (ix2 p k)) = _
  rw [broadcastTo_a1_ab_apply, normCol_apply]
  rfl

theorem unitSqCol_apply (x : FVec Ideal S512x512 .f32) (p : Fin 512) (u : Fin 1) :
    unitSqCol x (ix2 p u) = ∑ k : Fin 512, Cert.Dist.unitRow (fun k : Fin 512 => x (ix2 p k)) k * Cert.Dist.unitRow (fun k : Fin 512 => x (ix2 p k)) k := by
  unfold unitSqCol
  rw [shapeCast_a_a1_apply, rowSum_apply]
  refine Finset.sum_congr rfl fun k _ => ?_
  show unitBlock x (ix2 p k) * unitBlock x (ix2 p k) = _
  rw [unitBlock_apply]

theorem codeSqRow_apply (y : FVec Ideal S1280x512 .f32) (u : Fin 1) (q : Fin 1280) :
    codeSqRow y (ix2 u q) = ∑ k : Fin 512, y (ix2 q k) * y (ix2 q k) := by
  unfold codeSqRow
  rw [shapeCast_a_1a_apply, rowSum_apply]
  rfl

/-! ## The matrix product at an index

The dimension numbers contract axis 1 of both operands and keep axis 0 of each: output entry `(p, q)` pairs row `p` of
the left operand with row `q` of the right one, coordinate by coordinate. -/

theorem lhs_axis0 (i : S512x1280.Idx) (r : dot_S512x512_S1280x512_S512x1280_1_1_0_0_n_n.contr.Idx) :
    (dot_S512x512_S1280x512_S512x1280_1_1_0_0_n_n.lhsIdx i r 0).val = (i 0).val := by
  unfold DotDims.lhsIdx
  rw [dif_neg (show ¬(0 : Fin S512x512.rank) ∈ dot_S512x512_S1280x512_S512x1280_1_1_0_0_n_n.lhsBatch by decide), dif_pos (show (0 : Fin S512x512.rank) ∈ dot_S512x512_S1280x512_S512x1280_1_1_0_0_n_n.lhsNonContracting by decide)]
  rfl
theorem lhs_axis1 (i : S512x1280.Idx) (r : dot_S512x512_S1280x512_S512x1280_1_1_0_0_n_n.contr.Idx) :
    (dot_S512x512_S1280x512_S512x1280_1_1_0_0_n_n.lhsIdx i r 1).val = (r ⟨0, by decide⟩).val :=
  dot_S512x512_S1280x512_S512x1280_1_1_0_0_n_n.lhsIdx_val_of_single rfl i r
theorem rhs_axis0 (i : S512x1280.Idx) (r : dot_S512x512_S1280x512_S512x1280_1_1_0_0_n_n.contr.Idx) :
    (dot_S512x512_S1280x512_S512x1280_1_1_0_0_n_n.rhsIdx i r 0).val = (i 1).val := by
  unfold DotDims.rhsIdx
  rw [dif_neg (show ¬(0 : Fin S1280x512.rank) ∈ dot_S512x512_S1280x512_S512x1280_1_1_0_0_n_n.rhsBatch by decide), dif_pos (show (0 : Fin S1280x512.rank) ∈ dot_S512x512_S1280x512_S512x1280_1_1_0_0_n_n.rhsNonContracting by decide)]
  rfl
theorem rhs_axis1 (i : S512x1280.Idx) (r : dot_S512x512_S1280x512_S512x1280_1_1_0_0_n_n.contr.Idx) :
    (dot_S512x512_S1280x512_S512x1280_1_1_0_0_n_n.rhsIdx i r 1).val = (r ⟨0, by decide⟩).val :=
  dot_S512x512_S1280x512_S512x1280_1_1_0_0_n_n.rhsIdx_val_of_single rfl i r

theorem cross_apply (x : FVec Ideal S512x512 .f32) (y : FVec Ideal S1280x512 .f32) (p : Fin 512) (q : Fin 1280) :
    cross x y (ix2 p q) = ∑ k : Fin 512, Cert.Dist.unitRow (fun k : Fin 512 => x (ix2 p k)) k * y (ix2 q k) := by
  unfold cross
  simp only [matmul]
  rw [Ideal.matmul_constant_zero_apply, ← Equiv.sum_comp (contrEquiv1 dot_S512x512_S1280x512_S512x1280_1_1_0_0_n_n 512 rfl rfl).symm]
  refine Finset.sum_congr rfl fun k _ => ?_
  have hk := contrEquiv1_symm_val dot_S512x512_S1280x512_S512x1280_1_1_0_0_n_n 512 rfl rfl k
  have el : dot_S512x512_S1280x512_S512x1280_1_1_0_0_n_n.lhsIdx (ix2 p q) ((contrEquiv1 dot_S512x512_S1280x512_S512x1280_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S512x512_S1280x512_S512x1280_1_1_0_0_n_n.rhsIdx (ix2 p q) ((contrEquiv1 dot_S512x512_S1280x512_S512x1280_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]
  show unitBlock x (ix2 p k) * y (ix2 q k) = _
  rw [unitBlock_apply]

/-! ## The stored block at an index -/

theorem stored_apply (x : FVec Ideal S512x512 .f32) (y : FVec Ideal S1280x512 .f32) (p : Fin 512) (q : Fin 1280) :
    stored x y (ix2 p q) = Cert.Dist.dist (fun k : Fin 512 => x (ix2 p k)) (fun k : Fin 512 => y (ix2 q k)) := by
  show Ideal.sqrt (max ((broadcastTo S512x1280 (unitSqCol x) broadcasts_S512x1_S512x1280 (ix2 p q)
      - Ideal.ofBits .f32 0x40000000#32 * cross x y (ix2 p q))
      + broadcastTo S512x1280 (codeSqRow y) broadcasts_S1x1280_S512x1280 (ix2 p q)) (Ideal.ofBits .f32 0x00000000#32)) = _
  rw [broadcastTo_a1_ab_apply, broadcastTo_1b_ab_apply, unitSqCol_apply, codeSqRow_apply, cross_apply]
  rfl

/-- Entry `(p, q)` of what the body stores is the distance from the unit row of hidden row `p` to codebook row `q`. -/
theorem pay_apply (x0 : Vec Ideal S512x512 .f32) (x1 : Vec Ideal S1280x512 .f32) (p : Fin 512) (q : Fin 1280) :
    k0_pay1 (F := Ideal) x0 x1 (ix2 p q) = Cert.Dist.dist (fun k : Fin 512 => x0 (ix2 p k)) (fun k : Fin 512 => x1 (ix2 q k)) := by
  rw [pay_eq]
  exact stored_apply x0 x1 p q

end Cert.KernelIdeal.Payload

end
-- ==== Proof.LibFlatten.lean ====
/-
  Leading axes merged or split by a reshape, read at an index.

  A row-major reshape of an `[a, b, c]` array to `[n, c]` (with `n = a·b`) keeps the last axis and numbers the
  rows `(i, j)` as `i·b + j`; the reshape back splits row `r = i·b + j` into `(i, j)`. Both are read here at an index
  written by coordinates, for any sizes: the two indices have the same row-major position.
-/
import Idealize.ShloMosaic.Lib.ValueLayout

namespace Cert.LibFlatten

open Idealize.ShloMosaic Idealize.ShloMosaic.ValueIdx

variable {α : Type}

/-- An `[a, b, c]` array reshaped to `[n, c]` reads, at `(r, k)` with `r = i·b + j`, the operand at `(i, j, k)`. -/
theorem shapeCast_merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array reshaped to `[a, b, c]` reads, at `(i, j, k)`, the operand at `(r, k)` with `r = i·b + j`. -/
theorem shapeCast_split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten
-- ==== Proof.KernelValue.lean ====
/-
  The kernel's output array after the run, and the program's result.

  The program flattens the hidden states `h : [2, 2048, 512]` to `[4096, 512]`, runs the body on an `8 × 25` grid,
  and reshapes the `[4096, 32000]` output to `[2, 2048, 32000]`. Grid point `(i, j)` loads rows `512·i …` of the
  flattened hidden states and rows `1280·j …` of the codebook, and writes block `(i, j)` of the output. Entry `(p, q)`
  of that block is the distance from the unit row of hidden row `512·i + p` to codebook row `1280·j + q`, which is
  entry `(512·i + p, 1280·j + q)` of ONE function of the two arrays; the 200 blocks tile the output, so the
  output is that function. The two reshapes keep row-major positions: flattened row `2048·b + s` is `h[b, s, :]`.
-/
import proofs.«136764_j24635932410273_1_alg».proof.Proof.Gen.KernelIdeal.Frame
import proofs.«136764_j24635932410273_1_alg».proof.Proof.KernelPayload
import Idealize.ShloMosaic.Lib.Pipeline.Value
import Idealize.ShloMosaic.Lib.StableHlo.Run
import proofs.«136764_j24635932410273_1_alg».proof.Proof.LibFlatten

set_option maxRecDepth 16384

open scoped BigOperators

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The output as one function of the flattened hidden states and the codebook -/

/-- Entry `(r, n)` is the distance from the unit row of flattened hidden row `r` to codebook row `n`. -/
def flatDist (a0 : S4096x512.Idx → EReal) (a1 : S32000x512.Idx → EReal) : S4096x32000.Idx → EReal := fun i =>
  Cert.Dist.dist (fun k : Fin 512 => a0 (ix2 (⟨(i 0).val, idx2_lt0 i⟩ : Fin 4096) k))
    (fun k : Fin 512 => a1 (ix2 (⟨(i 1).val, idx2_lt1 i⟩ : Fin 32000) k))

theorem hz : (![0, 0] : Fin 2 → Nat) = fun _ => 0 := funext fun a => by fin_cases a <;> rfl

/-- The printed index maps, decided over the 200 grid points: the hidden window moves with the output's row
    blocks, the codebook window with its column blocks, and neither moves along the 512 coordinates. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 24 :=
  (by decide +kernel : ∀ t : Fin grid0.N, _)

/-- Every block of the `8 × 25` box is some point's. -/
theorem idx_onto : ∀ (q0 : Fin 8) (q1 : Fin 25), ∃ t : Fin cfg0.N, win0_2.index t = ![q0.val, q1.val] :=
  (by decide +kernel : ∀ (q0 : Fin 8) (q1 : Fin 25), ∃ t : Fin grid0.N, win0_2.index t = ![q0.val, q1.val])

/-- What point `t` writes back is block `t` of `flatDist` of the arrays as the region finds them. -/
theorem flushed_eq (c : Dev nD) (t : Fin cfg0.N) :
    (dats m 0 c).flushed 2 t = ((cfg0.win 2).blk t).view.read (Elt Ideal) (flatDist (V m c main_v0) (V m c main_arg1)) := by
  show (cfg0.win 2).cut (grid0.coords t) ((dats m 0 c).after 2 t) = _
  rw [after0_2]
  unfold out0_2
  rw [View.canon_unit_zero hz]
  simp only [View.ld_unit_zero (S := S512x512) hz, View.ld_unit_zero (S := S1280x512) hz]
  obtain ⟨e0, e1, e2, e3, e4, e5⟩ := idx_facts t
  funext j
  obtain ⟨p, q, rfl⟩ : ∃ (p : Fin 512) (q : Fin 1280), j = ix2 p q := ⟨j 0, j 1, eq_ix2 j⟩
  show k0_pay1 (F := Ideal) (iblk m c 0 t) (iblk m c 1 t) (ix2 p q)
    = flatDist (V m c main_v0) (V m c main_arg1) (((cfg0.win 2).blk t).view.emb (ix2 p q))
  refine (Cert.KernelIdeal.Payload.pay_apply (iblk m c 0 t) (iblk m c 1 t) p q).trans ?_
  unfold flatDist
  have h0 : ∀ k : Fin 512, ((cfg0.win 0).blk t).view.emb (ix2 p k)
      = ix2 (⟨((((cfg0.win 2).blk t).view.emb (ix2 p q)) 0).val, idx2_lt0 _⟩ : Fin 4096) k := by
    intro k; funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 512 + 1 * k.val = k.val; omega
  have h1 : ∀ k : Fin 512, ((cfg0.win 1).blk t).view.emb (ix2 q k)
      = ix2 (⟨((((cfg0.win 2).blk t).view.emb (ix2 p q)) 1).val, idx2_lt1 _⟩ : Fin 32000) k := by
    intro k; funext a; apply Fin.ext
    match a with
    | ⟨0, _⟩ => show win0_1.index t (0 : Fin 2) * 1280 + 1 * q.val = win0_2.index t (1 : Fin 2) * 1280 + 1 * q.val; omega
    | ⟨1, _⟩ => show win0_1.index t (1 : Fin 2) * 512 + 1 * k.val = k.val; omega
  show Cert.Dist.dist (fun k : Fin 512 => V m c main_v0 (((cfg0.win 0).blk t).view.emb (ix2 p k)))
      (fun k : Fin 512 => V m c main_arg1 (((cfg0.win 1).blk t).view.emb (ix2 q k))) = _
  simp only [h0, h1]

/-- An index of the output is in point `t`'s block iff each coordinate is in the block's range on its axis. -/
theorem mem_blk (t : Fin cfg0.N) (i : S4096x32000.Idx) :
    i ∈ ((cfg0.win 2).blk t).view.set ↔ ∀ a : Fin 2, win0_2.index t a * S512x1280.size a ≤ (i a).val
      ∧ (i a).val < win0_2.index t a * S512x1280.size a + S512x1280.size a := by
  show i ∈ ((View.whole main_v1).slice (win0_2.rect t)).set ↔ _
  rw [View.set_slice_whole, Rect.mem_set_unit]
  exact Iff.rfl

/-- The blocks tile the output: entry `(r, n)` is in the block of the point with block indices `(r / 512, n / 1280)`. -/
theorem cover (i : S4096x32000.Idx) : ∃ t : Fin cfg0.N, (cfg0.win 2).flush t = true ∧ i ∈ ((cfg0.win 2).blk t).view.set := by
  have hi0 : (i 0).val < 4096 := (i 0).isLt
  have hi1 : (i 1).val < 32000 := (i 1).isLt
  obtain ⟨t, ht⟩ := idx_onto ⟨(i 0).val / 512, by omega⟩ ⟨(i 1).val / 1280, by omega⟩
  have q0 : win0_2.index t (0 : Fin 2) = (i 0).val / 512 := congrFun ht 0
  have q1 : win0_2.index t (1 : Fin 2) = (i 1).val / 1280 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1280 ≤ (i 1).val ∧ (i 1).val < win0_2.index t (1 : Fin 2) * 1280 + 1280; omega

/-- The output array after the run is `flatDist` of the arrays as the region finds them. -/
theorem final (c : Dev nD) : (dats m 0 c).arrAt 2 cfg0.N = flatDist (V m c main_v0) (V m c main_arg1) :=
  (dats m 0 c).arrAt_eq_of_cover 2 (flatDist (V m c main_v0) (V m c main_arg1)) (fun t _ => flushed_eq m c t) cover

/-! ## The two reshapes around the region -/

/-- The region finds the hidden states flattened. -/
theorem V_main_v0 (c : Dev nD) : (V m c main_v0 : S4096x512.Idx → EReal)
    = shapeCast S4096x512 (m ((c : Thread nD τ).loc main_arg0)) shapeCasts_S2x2048x512_S4096x512 := by
  show StableHlo.after hostOps0 (fun b => m (c, b)) (Proc.devRef .tc main_v0) = _
  after_results
  rfl

/-- The program's result is the output array reshaped. -/
theorem result_tail (c : Dev nD) : (Pipeline.afterTail₀ cfgs (dats m) 0 (V0 m) [hostOps1] c main_v2 : S2x2048x32000.Idx → EReal)
    = shapeCast S2x2048x32000 (flatDist (V m c main_v0) (V m c main_arg1)) shapeCasts_S4096x32000_S2x2048x32000 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = flatDist (V m c main_v0) (V m c main_arg1) :=
    (Pipeline.withArrays_arr spec0 launch0.win.arr_inj c _ _ 2).trans (final m c)
  rw [e]
  rfl

/-- The reshaped output, entry by entry, is the whole-result function of the arrays as launched: entry `(b, s, n)`
    of the reshape is entry `(2048·b + s, n)` of the output, and flattened hidden row `2048·b + s` is `h[b, s, :]`. -/
theorem result_eq (c : Dev nD) :
    shapeCast S2x2048x32000 (flatDist (V m c main_v0) (V m c main_arg1)) shapeCasts_S4096x32000_S2x2048x32000
      = Cert.Dist.distArr (m ((c.tc : Thread nD τ).loc main_arg0)) (m ((c.tc : Thread nD τ).loc main_arg1)) := by
  funext i
  obtain ⟨b, s, n, rfl⟩ : ∃ (b : Fin 2) (s : Fin 2048) (n : Fin 32000), i = ix3 b s n := ⟨i 0, i 1, i 2, eq_ix3 i⟩
  have hr : b.val * 2048 + s.val < 4096 := by have := b.isLt; have := s.isLt; omega
  rw [Cert.LibFlatten.shapeCast_split_apply _ _ b s n (⟨b.val * 2048 + s.val, hr⟩ : Fin 4096) rfl, Cert.Dist.distArr_ix3]
  show Cert.Dist.dist (fun k : Fin 512 => V m c main_v0 (ix2 (⟨b.val * 2048 + s.val, hr⟩ : Fin 4096) k))
      (fun k : Fin 512 => V m c main_arg1 (ix2 n k)) = _
  rw [V_main_v0, V_main_arg1]
  have e : ∀ k : Fin 512, shapeCast S4096x512 (m ((c : Thread nD τ).loc main_arg0)) shapeCasts_S2x2048x512_S4096x512
      (ix2 (⟨b.val * 2048 + s.val, hr⟩ : Fin 4096) k) = m ((c : Thread nD τ).loc main_arg0) (ix3 b s k) :=
    fun k => Cert.LibFlatten.shapeCast_merge_apply _ _ b s k _ rfl
  simp only [e]

/-! ## The run, read -/

/-- Every weakly fair execution of the program terminates with its result at the whole-result function of the
    arguments, and the arguments unchanged. -/
theorem run : θ_run defs (onTc (τ := τ) (main (F := Ideal))) ⟨m, fun _ => 0, ρ⟩ fun r => ∀ c : Dev nD,
      r.2.mem ((c.tc : Thread nD τ).loc main_v2)
        = Cert.Dist.distArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v2 (Pipeline.mem_restRefs_of main_v2 (by decide) (by decide))).trans
        ((result_tail m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.ArrayValue

end
-- ==== Proof.RefValue.lean ====
/-
  What the reference computes, entry by entry.

  The reference normalizes every hidden row `h[b, s, :]` by its Euclidean norm clamped from below by `ε`, and from
  the unit rows `u` and the codebook rows `w[n, :]` forms `sqrt (max (‖u‖² − 2·⟨u, w n⟩ + ‖w n‖²) 0)`. Read one
  operation at a time on the extended reals, entry `(b, s, n)` of its result is the distance `Cert.Dist.dist` from
  the unit row of `h[b, s, :]` to `w[n, :]`: each host sum is its initial zero plus the sum over the reduced
  coordinate, the contraction is the sum of products over its one contracted coordinate, and each
  broadcast reads its operand at the coordinates it keeps.
-/
import proofs.«136764_j24635932410273_1_alg».proof.Proof.Gen.ReferenceIdeal.Read
import proofs.«136764_j24635932410273_1_alg».proof.Proof.Spec

open scoped BigOperators

noncomputable section

namespace Cert.ReferenceIdeal.RefValue

open Cert.ReferenceIdeal Cert.ReferenceIdeal.Read Idealize.ShloMosaic Idealize.ShloMosaic.ValueIdx

/-! ## The composed index maps are the coordinates one expects -/

theorem idx_norm (b : Fin 2) (s : Fin 2048) (u : Fin 1) (k : Fin 512) :
    idx_main_call0_v1 (idx_main_call0_v2 (ix3 b s u)) k = ix3 b s k :=
  funext fun a => Fin.ext (by match a with | ⟨0, _⟩ => rfl | ⟨1, _⟩ => rfl | ⟨2, _⟩ => rfl)
theorem idx_col (b : Fin 2) (s : Fin 2048) (k : Fin 512) : idx_main_v3 (ix3 b s k) = ix3 b s (0 : Fin 1) :=
  funext fun a => Fin.ext (by match a with | ⟨0, _⟩ => rfl | ⟨1, _⟩ => rfl | ⟨2, _⟩ => rfl)
theorem idx_unitSq (b : Fin 2) (s : Fin 2048) (u : Fin 1) (k : Fin 512) :
    idx_main_v6 (idx_main_v7 (ix3 b s u)) k = ix3 b s k :=
  funext fun a => Fin.ext (by match a with | ⟨0, _⟩ => rfl | ⟨1, _⟩ => rfl | ⟨2, _⟩ => rfl)
theorem idx_codeSq (n : Fin 32000) (k : Fin 512) : idx_main_v9 (ix1 n) k = ix2 n k :=
  funext fun a => Fin.ext (by match a with | ⟨0, _⟩ => rfl | ⟨1, _⟩ => rfl)
theorem idx_left (b : Fin 2) (s : Fin 2048) (n : Fin 32000) (k : Fin 512) : lidx_main_v10 (ix3 b s n) k = ix3 b s k :=
  funext fun a => Fin.ext (by match a with | ⟨0, _⟩ => rfl | ⟨1, _⟩ => rfl | ⟨2, _⟩ => rfl)
theorem idx_right (b : Fin 2) (s : Fin 2048) (n : Fin 32000) (k : Fin 512) : ridx_main_v10 (ix3 b s n) k = ix2 n k :=
  funext fun a => Fin.ext (by match a with | ⟨0, _⟩ => rfl | ⟨1, _⟩ => rfl)
theorem idx_rowCol (b : Fin 2) (s : Fin 2048) (n : Fin 32000) : idx_main_v13 (ix3 b s n) = ix3 b s (0 : Fin 1) :=
  funext fun a => Fin.ext (by match a with | ⟨0, _⟩ => rfl | ⟨1, _⟩ => rfl | ⟨2, _⟩ => rfl)
theorem idx_code (b : Fin 2) (s : Fin 2048) (n : Fin 32000) : idx_main_v15 (idx_main_v16 (ix3 b s n)) = ix1 n :=
  funext fun a => Fin.ext (by match a with | ⟨0, _⟩ => rfl)

/-! ## The stages at an index -/

theorem norm_apply (h : (⟨S2x2048x512, .f32⟩ : BufTy).Contents (Elt Ideal)) (b : Fin 2) (s : Fin 2048) (u : Fin 1) :
    val_main_v2 (F := Ideal) h (ix3 b s u) = Cert.Dist.clampedNorm (fun k : Fin 512 => h (ix3 b s k)) := by
  rw [val_main_v2_apply, val_main_v0_apply, val_main_call0_v2_apply, val_main_call0_v1_apply, val_main_v1_apply,
    val_main_cst_apply, val_main_call0_cst_apply]
  simp only [val_main_call0_v0_apply, idx_norm, Ideal.ofBits_def, Ideal.ofBits_zero_f32, zero_add, Ideal.maximumf_def,
    Ideal.hostUnary_sqrt_def, Ideal.mulf_def]
  rfl

theorem unit_apply (h : (⟨S2x2048x512, .f32⟩ : BufTy).Contents (Elt Ideal)) (b : Fin 2) (s : Fin 2048) (k : Fin 512) :
    val_main_v4 (F := Ideal) h (ix3 b s k) = Cert.Dist.unitRow (fun k : Fin 512 => h (ix3 b s k)) k := by
  rw [val_main_v4_apply, val_main_v3_apply, idx_col, norm_apply]
  rfl

theorem unitSq_apply (h : (⟨S2x2048x512, .f32⟩ : BufTy).Contents (Elt Ideal)) (b : Fin 2) (s : Fin 2048) (u : Fin 1) :
    val_main_v7 (F := Ideal) h (ix3 b s u)
      = ∑ k : Fin 512, Cert.Dist.unitRow (fun k : Fin 512 => h (ix3 b s k)) k * Cert.Dist.unitRow (fun k : Fin 512 => h (ix3 b s k)) k := by
  rw [val_main_v7_apply, val_main_v6_apply, val_main_cst_0_apply]
  simp only [val_main_v5_apply, idx_unitSq, unit_apply, Ideal.ofBits_def, Ideal.ofBits_zero_f32, zero_add, Ideal.mulf_def]

theorem codeSq_apply (w : (⟨S32000x512, .f32⟩ : BufTy).Contents (Elt Ideal)) (n : Fin 32000) :
    val_main_v9 (F := Ideal) w (ix1 n) = ∑ k : Fin 512, w (ix2 n k) * w (ix2 n k) := by
  rw [val_main_v9_apply, val_main_cst_1_apply]
  simp only [val_main_v8_apply, idx_codeSq, Ideal.ofBits_def, Ideal.ofBits_zero_f32, zero_add, Ideal.mulf_def]

theorem cross_apply (h : (⟨S2x2048x512, .f32⟩ : BufTy).Contents (Elt Ideal)) (w : (⟨S32000x512, .f32⟩ : BufTy).Contents (Elt Ideal)) (b : Fin 2) (s : Fin 2048) (n : Fin 32000) :
    val_main_v10 (F := Ideal) h w (ix3 b s n)
      = ∑ k : Fin 512, Cert.Dist.unitRow (fun k : Fin 512 => h (ix3 b s k)) k * w (ix2 n k) := by
  rw [val_main_v10_apply]
  simp only [idx_left, idx_right, unit_apply]

/-- Entry `(b, s, n)` of the reference's result is the distance from the unit row of `h[b, s, :]` to `w[n, :]`. -/
theorem result_apply (h : (⟨S2x2048x512, .f32⟩ : BufTy).Contents (Elt Ideal)) (w : (⟨S32000x512, .f32⟩ : BufTy).Contents (Elt Ideal)) (b : Fin 2) (s : Fin 2048) (n : Fin 32000) :
    val_main_v20 (F := Ideal) h w (ix3 b s n)
      = Cert.Dist.dist (fun k : Fin 512 => h (ix3 b s k)) (fun k : Fin 512 => w (ix2 n k)) := by
  rw [val_main_v20_apply, val_main_v19_apply, val_main_v17_apply, val_main_v14_apply, val_main_v13_apply, idx_rowCol,
    unitSq_apply, val_main_v12_apply, val_main_v11_apply, val_main_cst_2_apply, cross_apply, val_main_v16_apply,
    val_main_v15_apply, idx_code, codeSq_apply, val_main_v18_apply, val_main_cst_3_apply]
  rfl

end Cert.ReferenceIdeal.RefValue

end
-- ==== Proof.lean ====
/-
  The distance of normalized hidden states to a codebook: the tiled kernel and the plain reference agree over the
  extended reals.

  Both programs compute, for every hidden row `h[b, s, :]` and every codebook row `w[n, :]`,
  `sqrt (max (‖u‖² − 2·⟨u, w n⟩ + ‖w n‖²) 0)` with `u = h[b, s, :] / max ‖h[b, s, :]‖ ε`: the same three float
  words, the same operations in the same order. The kernel works on the hidden states flattened to `[4096, 512]`,
  block by block on an `8 × 25` grid, feeds the inner products through a bf16 matrix product into a zero block,
  and reshapes its `[4096, 32000]` output back; the reference works on whole arrays with one contraction. Over
  the extended reals a change of float format is the identity and every sum is a finite sum over the 512
  coordinates of a row, so entry `(b, s, n)` of both results is ONE function of the two rows
  (`Cert.Dist.dist`, Proof/Spec.lean): the kernel's by what its body stores in a block (Proof/KernelPayload.lean), the
  blocks tiling the output and the two reshapes keeping row-major positions (Proof/KernelValue.lean); the
  reference's operation by operation (Proof/RefValue.lean). No law of arithmetic beyond reading the operations is
  used, so the precondition (finite inputs) is never opened. The idealization rewrote nothing, so `preserves` is
  trivial; the frames of the two kernel programs are their generated frame runs, and the reference's frame is its
  generated run with the result dropped.
-/
import proofs.«136764_j24635932410273_1_alg».proof.Defs
import proofs.«136764_j24635932410273_1_alg».proof.Proof.Gen.Kernel
import proofs.«136764_j24635932410273_1_alg».proof.Proof.Gen.Kernel.Skeleton
import proofs.«136764_j24635932410273_1_alg».proof.Proof.Gen.Kernel.Launch
import proofs.«136764_j24635932410273_1_alg».proof.Proof.Gen.Kernel.Points
import proofs.«136764_j24635932410273_1_alg».proof.Proof.Gen.Kernel.Frame
import proofs.«136764_j24635932410273_1_alg».proof.Proof.Gen.KernelIdeal
import proofs.«136764_j24635932410273_1_alg».proof.Proof.Gen.KernelIdeal.Skeleton
import proofs.«136764_j24635932410273_1_alg».proof.Proof.Gen.KernelIdeal.Launch
import proofs.«136764_j24635932410273_1_alg».proof.Proof.Gen.KernelIdeal.Points
import proofs.«136764_j24635932410273_1_alg».proof.Proof.Gen.KernelIdeal.Frame
import proofs.«136764_j24635932410273_1_alg».proof.Proof.Gen.ReferenceIdeal
import proofs.«136764_j24635932410273_1_alg».proof.Proof.Gen.ReferenceIdeal.Run
import proofs.«136764_j24635932410273_1_alg».proof.Proof.Gen.ReferenceIdeal.Read
import proofs.«136764_j24635932410273_1_alg».proof.Proof.Gen.Pre_finite_inputs
import proofs.«136764_j24635932410273_1_alg».proof.Proof.Spec
import proofs.«136764_j24635932410273_1_alg».proof.Proof.KernelValue
import proofs.«136764_j24635932410273_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and keeps its arguments: its generated frame run. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: entry `(b, s, n)` of each is the
    distance from the unit row of `h[b, s, :]` to `w[n, :]`. -/
theorem algebraic : Cert.algebraic_KernelIdeal_ReferenceIdeal := by
  intro m ρ m' ρ' _ hagree
  refine ⟨fun c => Cert.Dist.distArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v20_eq _ _).trans ?_
  funext i
  obtain ⟨b, s, n, rfl⟩ : ∃ (b : Fin 2) (s : Fin 2048) (n : Fin 32000), i = ix3 b s n := ⟨i 0, i 1, i 2, eq_ix3 i⟩
  rw [Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
